-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1048576 : Shape := ⟨1, ![1048576]⟩
abbrev S192x128 : Shape := ⟨2, ![192, 128]⟩
abbrev S128 : Shape := ⟨1, ![128]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S65536x64 .f32) (main_arg1 : IVec S1048576 32) (main_arg2 : IVec S1048576 32) (main_arg3 : FVec F S1048576 .f32) (main_arg4 : FVec F S192x128 .f32) (main_arg5 : FVec F S128 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1048576 .f32 := Host.absf main_arg3
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S65536x64 : Shape := ⟨2, ![65536, 64]⟩
abbrev S1048576 : Shape := ⟨1, ![1048576]⟩
abbrev S192x128 : Shape := ⟨2, ![192, 128]⟩
abbrev S128 : Shape := ⟨1, ![128]⟩
abbrev S1048576x1 : Shape := ⟨2, ![1048576, 1]⟩
abbrev S_ : Shape := ⟨0, ![]⟩
abbrev S1048576x64 : Shape := ⟨2, ![1048576, 64]⟩
abbrev S65536x192 : Shape := ⟨2, ![65536, 192]⟩
abbrev S1x128 : Shape := ⟨2, ![1, 128]⟩
abbrev S65536x128 : Shape := ⟨2, ![65536, 128]⟩
abbrev S4096x192 : Shape := ⟨2, ![4096, 192]⟩
abbrev S4096x128 : Shape := ⟨2, ![4096, 128]⟩

abbrev nBuf : Space → Nat
  | .hbm => 45
  | .vmem => 6
  | .smem => 0
  | _ => 0

abbrev bufTy : (tb : Table) → Fin (tcTables nBuf tb) → BufTy
  | .hbm, ⟨0, _⟩ => ⟨S65536x64, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S192x128, .f32⟩
  | .hbm, ⟨5, _⟩ => ⟨S128, .f32⟩
  | .hbm, ⟨6, _⟩ => ⟨S1048576x1, .f32⟩
  | .hbm, ⟨7, _⟩ => ⟨S_, .i32⟩
  | .hbm, ⟨8, _⟩ => ⟨S1048576, .i32⟩
  | .hbm, ⟨9, _⟩ => ⟨S1048576, .i1⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S1048576, .i32⟩
  | .hbm, ⟨14, _⟩ => ⟨S1048576x1, .i32⟩
  | .hbm, ⟨15, _⟩ => ⟨S1048576x64, .f32⟩
  | .hbm, ⟨16, _⟩ => ⟨S1048576x64, .f32⟩
  | .hbm, ⟨17, _⟩ => ⟨S1048576x64, .f32⟩
  | .hbm, ⟨18, _⟩ => ⟨S_, .f32⟩
  | .hbm, ⟨19, _⟩ => ⟨S65536x64, .f32⟩
  | .hbm, ⟨20, _⟩ => ⟨S1048576x1, .i32⟩
  | .hbm, ⟨21, _⟩ => ⟨S65536x64, .f32⟩
  | .hbm, ⟨22, _⟩ => ⟨S1048576x1, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x64, .f32⟩
  | .hbm, ⟨32, _⟩ => ⟨S1048576x64, .f32⟩
  | .hbm, ⟨33, _⟩ => ⟨S1048576x64, .f32⟩
  | .hbm, ⟨34, _⟩ => ⟨S_, .f32⟩
  | .hbm, ⟨35, _⟩ => ⟨S65536x64, .f32⟩
  | .hbm, ⟨36, _⟩ => ⟨S1048576x1, .i32⟩
  | .hbm, ⟨37, _⟩ => ⟨S65536x64, .f32⟩
  | .hbm, ⟨38, _⟩ => ⟨S_, .f32⟩
  | .hbm, ⟨39, _⟩ => ⟨S65536x64, .f32⟩
  | .hbm, ⟨40, _⟩ => ⟨S65536x64, .f32⟩
  | .hbm, ⟨41, _⟩ => ⟨S65536x64, .f32⟩
  | .hbm, ⟨42, _⟩ => ⟨S65536x192, .f32⟩
  | .hbm, ⟨43, _⟩ => ⟨S1x128, .f32⟩
  | .hbm, ⟨44, _⟩ => ⟨S65536x128, .f32⟩
  | .local _ .vmem, ⟨0, _⟩ => ⟨S4096x192, .f32⟩
  | .local _ .vmem, ⟨1, _⟩ => ⟨S4096x192, .f32⟩
  | .local _ .vmem, ⟨2, _⟩ => ⟨S192x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  concatenates_S65536x64_S65536x64_S65536x64_S65536x192_d1 : Shape.Concatenates [S65536x64, S65536x64, S65536x64] S65536x192 1
  shapeCasts_S128_S1x128 : S128.ShapeCasts S1x128
  inb_S4096x192_S4096x192_0_0 : ∀ a, (![0, 0] : Fin 2 → Nat) a + S4096x192.size a ≤ S4096x192.size a
  h_S4096x192 : 0 < S4096x192.numel
  shapeCasts_S4096x192_S4096x192 : S4096x192.ShapeCasts S4096x192
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S4096x192_S192x128_S4096x128_1_0_0_1_n_n_wf : DotDims.WF S4096x192 S192x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x192.size a ≤ S65536x192.size a
  hwx0_0 : ∀ i : grid0.Coords, EltTy.bits .f32 = 32 ∨ (Rect.block (s := S65536x192) S4096x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .f32 = 32 ∨ (Rect.block (s := S192x128) S192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S65536x128.size a
  hwx0_3 : ∀ i : grid0.Coords, EltTy.bits .f32 = 32 ∨ (Rect.block (s := S65536x128) S4096x128.size (cc0_transform_3 i) (hinb0_3 i)).WholeWords (EltTy.packing .f32)

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S4096x192_S192x128_S4096x128_1_0_0_1_n_n : DotDims S4096x192 S192x128 S4096x128 where
  lhsContracting := [1]
  rhsContracting := [0]
  lhsNonContracting := [0]
  rhsNonContracting := [1]
  lhsBatch := []
  rhsBatch := []
  wf := dot_S4096x192_S192x128_S4096x128_1_0_0_1_n_n_wf

abbrev win0_0 : Pipeline.Window sig grid0 :=
  Pipeline.Window.ofSpec (Memref.whole main_v29) S4096x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x64 : Shape := ⟨2, ![65536, 64]⟩
abbrev S1048576 : Shape := ⟨1, ![1048576]⟩
abbrev S192x128 : Shape := ⟨2, ![192, 128]⟩
abbrev S128 : Shape := ⟨1, ![128]⟩
abbrev S1048576x1 : Shape := ⟨2, ![1048576, 1]⟩
abbrev S_ : Shape := ⟨0, ![]⟩
abbrev S1048576x64 : Shape := ⟨2, ![1048576, 64]⟩
abbrev S65536x192 : Shape := ⟨2, ![65536, 192]⟩
abbrev S65536x128 : Shape := ⟨2, ![65536, 128]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S192x128, .f32⟩
  | .hbm, ⟨5, _⟩ => ⟨S128, .f32⟩
  | .hbm, ⟨6, _⟩ => ⟨S1048576x1, .f32⟩
  | .hbm, ⟨7, _⟩ => ⟨S_, .i32⟩
  | .hbm, ⟨8, _⟩ => ⟨S1048576, .i32⟩
  | .hbm, ⟨9, _⟩ => ⟨S1048576, .i1⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S1048576, .i32⟩
  | .hbm, ⟨14, _⟩ => ⟨S1048576x1, .i32⟩
  | .hbm, ⟨15, _⟩ => ⟨S1048576x64, .f32⟩
  | .hbm, ⟨16, _⟩ => ⟨S1048576x64, .f32⟩
  | .hbm, ⟨17, _⟩ => ⟨S1048576x64, .f32⟩
  | .hbm, ⟨18, _⟩ => ⟨S_, .f32⟩
  | .hbm, ⟨19, _⟩ => ⟨S65536x64, .f32⟩
  | .hbm, ⟨20, _⟩ => ⟨S1048576x1, .i32⟩
  | .hbm, ⟨21, _⟩ => ⟨S65536x64, .f32⟩
  | .hbm, ⟨22, _⟩ => ⟨S1048576x1, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x64, .f32⟩
  | .hbm, ⟨32, _⟩ => ⟨S1048576x64, .f32⟩
  | .hbm, ⟨33, _⟩ => ⟨S1048576x64, .f32⟩
  | .hbm, ⟨34, _⟩ => ⟨S_, .f32⟩
  | .hbm, ⟨35, _⟩ => ⟨S65536x64, .f32⟩
  | .hbm, ⟨36, _⟩ => ⟨S1048576x1, .i32⟩
  | .hbm, ⟨37, _⟩ => ⟨S65536x64, .f32⟩
  | .hbm, ⟨38, _⟩ => ⟨S_, .f32⟩
  | .hbm, ⟨39, _⟩ => ⟨S65536x64, .f32⟩
  | .hbm, ⟨40, _⟩ => ⟨S65536x64, .f32⟩
  | .hbm, ⟨41, _⟩ => ⟨S65536x64, .f32⟩
  | .hbm, ⟨42, _⟩ => ⟨S65536x192, .f32⟩
  | .hbm, ⟨43, _⟩ => ⟨S65536x128, .f32⟩
  | .hbm, ⟨44, _⟩ => ⟨S1x128, .f32⟩
  | .hbm, ⟨45, _⟩ => ⟨S65536x128, .f32⟩
  | .hbm, ⟨46, _⟩ => ⟨S65536x128, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  concatenates_S65536x64_S65536x64_S65536x64_S65536x192_d1 : Shape.Concatenates [S65536x64, S65536x64, S65536x64] S65536x192 1
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S65536x192_S192x128_S65536x128_1_0_0_1_n_n_wf : DotDims.WF S65536x192 S192x128 S65536x128 [1] [0] [0] [1] [] []

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S65536x192_S192x128_S65536x128_1_0_0_1_n_n : DotDims S65536x192 S192x128 S65536x128 where
  lhsContracting := [1]
  rhsContracting := [0]
  lhsNonContracting := [0]
  rhsNonContracting := [1]
  lhsBatch := []
  rhsBatch := []
  wf := dot_S65536x192_S192x128_S65536x128_1_0_0_1_n_n_wf

class Facts : Prop extends Facts₀ where

variable [Facts]
-- ==== Proof.KernelTile.lean ====
/-
  The frame run of `Kernel`: the host operations in front of the one pallas_call are run as one prefix (they write
  fresh HBM buffers only, so every argument array is found by the region as launched), and the region is the
  linear layer tile by tile: at each of the 16 grid points the body loads a 4096×192 block of the concatenated
  Chebyshev terms, the whole 192×128 weight matrix and the 1×128 bias row, and stores into the output block the
  one value `k0_pay1` of them (the matrix product into a zero accumulator plus the broadcast bias row). The body
  also loads the output block before it stores it; that value is never used. What each output block holds after
  the body is therefore one covering store, and the final output array is the library's `Dat.arrAt` of these
  blocks. Everything here is generic in the float instance.
-/
import proofs.«115452_j63230508531930_1_alg».proof.Proof.Gen.Kernel.Launch
import proofs.«115452_j63230508531930_1_alg».proof.Proof.Gen.Kernel.Skeleton
import proofs.«115452_j63230508531930_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- Core `c`'s buffers when the region is entered: the launch contents after the 38 host operations. -/
abbrev V (c : Dev nD) (b : Ref sig .tc) : Buf (Elt F) ((c : Thread nD τ).loc b) := StableHlo.after hostOps0 (fun b => m (c, b)) b

/-- No host operation allocates: each writes a buffer of the signature. -/
theorem hostOps0_fresh : (hostOps0 : List (HloOp τ sig (Elt F))).Forall fun op => op.fresh = ∅ := by
  simp only [List.Forall]; repeat' constructor

/-- @main is the host prefix followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched: every operation's one written buffer is another reference. -/
theorem V_unwritten (c : Dev nD) (b : Ref sig .tc)
    (hb : b = main_arg0 ∨ b = main_arg1 ∨ b = main_arg2 ∨ b = main_arg3 ∨ b = main_arg4 ∨ b = main_arg5) :
    V m c b = m ((c : Thread nD τ).loc b) := by
  rcases hb with rfl | rfl | rfl | rfl | rfl | rfl <;>
  exact StableHlo.after_of_forall_not_mem (b := Proc.devRef .tc _) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

theorem V_main_arg0 (c : Dev nD) : V m c main_arg0 = m ((c : Thread nD τ).loc main_arg0) := V_unwritten m c _ (.inl rfl)
theorem V_main_arg1 (c : Dev nD) : V m c main_arg1 = m ((c : Thread nD τ).loc main_arg1) := V_unwritten m c _ (.inr (.inl rfl))
theorem V_main_arg2 (c : Dev nD) : V m c main_arg2 = m ((c : Thread nD τ).loc main_arg2) := V_unwritten m c _ (.inr (.inr (.inl rfl)))
theorem V_main_arg3 (c : Dev nD) : V m c main_arg3 = m ((c : Thread nD τ).loc main_arg3) := V_unwritten m c _ (.inr (.inr (.inr (.inl rfl))))
theorem V_main_arg4 (c : Dev nD) : V m c main_arg4 = m ((c : Thread nD τ).loc main_arg4) := V_unwritten m c _ (.inr (.inr (.inr (.inr (.inl rfl)))))
theorem V_main_arg5 (c : Dev nD) : V m c main_arg5 = m ((c : Thread nD τ).loc main_arg5) := V_unwritten m c _ (.inr (.inr (.inr (.inr (.inr rfl)))))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not
    (a window whose block index does not move is fetched once and stays). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not
    (a window whose block index does not move is fetched once and stays). -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not
    (a window whose block index does not move is fetched once and stays). -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- From a run to the library's frame post: the weights are a staged input (read back at their entry contents), the
    five other arguments are staged by no window and bypass the region; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats 0 c).arrAt_in 1 rfl _).trans ((hA c 1).trans (V_main_arg4 m c))),
      ((h c).2 main_arg5 (Pipeline.mem_restRefs_of main_arg5 (by decide) (by decide))).trans (V_main_arg5 m c)⟩) h

/-! ## The body -/

abbrev rH : Rect S4096x192 := Rect.unit (s := S4096x192) ![0, 0] S4096x192.size inb_S4096x192_S4096x192_0_0
abbrev rW : Rect S192x128 := Rect.unit (s := S192x128) ![0, 0] S192x128.size inb_S192x128_S192x128_0_0
abbrev rB : Rect S1x128 := Rect.unit (s := S1x128) ![0, 0] S1x128.size inb_S1x128_S1x128_0_0
abbrev rO : Rect S4096x128 := Rect.unit (s := S4096x128) ![0, 0] S4096x128.size inb_S4096x128_S4096x128_0_0

/-- The output block after the body, from the three input blocks: its one store, which covers the block. -/
def outTile (h : Vec F S4096x192 .f32) (w : Vec F S192x128 .f32) (b : Vec F S1x128 .f32) : Vec F S4096x128 .f32 :=
  View.canon [⟨rO, k0_pay1 (View.ld h rH) (View.ld w rW) (View.ld b rB)⟩]

theorem cover_out (p0 : Vec F S4096x128 .f32) (y : S4096x128.Idx) :
    ∃ pc ∈ ([⟨rO, p0⟩] : List (View.Piece (Elt F) S4096x128 .f32)), y ∈ pc.1.set :=
  View.cover_of_tiled [⟨rO, p0⟩] S4096x128.size (by rfl) y

set_option maxHeartbeats 1000000 in
/-- The body on whole staging memrefs: the three inputs at `h`, `w`, `b` and the output at anything; it returns the
    inputs as they were and the output at `outTile h w b`. -/
theorem sound_kernel (c : Dev nD) (E : Set ℕ) (i : grid0.Coords)
    (arg1 : Memref sig .tc .vmem S4096x192 .f32) (harg1 : arg1.IsWhole) (arg2 : Memref sig .tc .vmem S192x128 .f32) (harg2 : arg2.IsWhole)
    (arg3 : Memref sig .tc .vmem S1x128 .f32) (harg3 : arg3.IsWhole) (arg4 : Memref sig .tc .vmem S4096x128 .f32) (harg4 : arg4.IsWhole)
    (h : Vec F S4096x192 .f32) (w : Vec F S192x128 .f32) (b : Vec F S1x128 .f32) (K : PUnit → sProp 𝕄) :
    iprop(owns (c : Thread nD τ) arg1 fullShare h ∗ owns (c : Thread nD τ) arg2 fullShare w ∗ owns (c : Thread nD τ) arg3 fullShare b
        ∗ (∃ d, owns (c : Thread nD τ) arg4 fullShare d)
        ∗ (iprop(owns (c : Thread nD τ) arg1 fullShare h ∗ owns (c : Thread nD τ) arg2 fullShare w ∗ owns (c : Thread nD τ) arg3 fullShare b
            ∗ owns (c : Thread nD τ) arg4 fullShare (outTile h w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body at point `t` each input's buffer
    still at its block and the output's at `outTile` of the three input blocks; the invariant says nothing of the
    kernel (it has no scratch); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outTile (iblk m c 0 t) (iblk m c 1 t) (iblk m c 2 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance: the run ends with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Tile

end
-- ==== Proof.KernelIdealTile.lean ====
/-
  The frame run of `KernelIdeal`: the host operations in front of the one pallas_call are run as one prefix (they write
  fresh HBM buffers only, so every argument array is found by the region as launched), and the region is the
  linear layer tile by tile: at each of the 16 grid points the body loads a 4096×192 block of the concatenated
  Chebyshev terms, the whole 192×128 weight matrix and the 1×128 bias row, and stores into the output block the
  one value `k0_pay1` of them (the matrix product into a zero accumulator plus the broadcast bias row). The body
  also loads the output block before it stores it; that value is never used. What each output block holds after
  the body is therefore one covering store, and the final output array is the library's `Dat.arrAt` of these
  blocks. Everything here is generic in the float instance.
-/
import proofs.«115452_j63230508531930_1_alg».proof.Proof.Gen.KernelIdeal.Launch
import proofs.«115452_j63230508531930_1_alg».proof.Proof.Gen.KernelIdeal.Skeleton
import proofs.«115452_j63230508531930_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- Core `c`'s buffers when the region is entered: the launch contents after the 38 host operations. -/
abbrev V (c : Dev nD) (b : Ref sig .tc) : Buf (Elt F) ((c : Thread nD τ).loc b) := StableHlo.after hostOps0 (fun b => m (c, b)) b

/-- No host operation allocates: each writes a buffer of the signature. -/
theorem hostOps0_fresh : (hostOps0 : List (HloOp τ sig (Elt F))).Forall fun op => op.fresh = ∅ := by
  simp only [List.Forall]; repeat' constructor

/-- @main is the host prefix followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched: every operation's one written buffer is another reference. -/
theorem V_unwritten (c : Dev nD) (b : Ref sig .tc)
    (hb : b = main_arg0 ∨ b = main_arg1 ∨ b = main_arg2 ∨ b = main_arg3 ∨ b = main_arg4 ∨ b = main_arg5) :
    V m c b = m ((c : Thread nD τ).loc b) := by
  rcases hb with rfl | rfl | rfl | rfl | rfl | rfl <;>
  exact StableHlo.after_of_forall_not_mem (b := Proc.devRef .tc _) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

theorem V_main_arg0 (c : Dev nD) : V m c main_arg0 = m ((c : Thread nD τ).loc main_arg0) := V_unwritten m c _ (.inl rfl)
theorem V_main_arg1 (c : Dev nD) : V m c main_arg1 = m ((c : Thread nD τ).loc main_arg1) := V_unwritten m c _ (.inr (.inl rfl))
theorem V_main_arg2 (c : Dev nD) : V m c main_arg2 = m ((c : Thread nD τ).loc main_arg2) := V_unwritten m c _ (.inr (.inr (.inl rfl)))
theorem V_main_arg3 (c : Dev nD) : V m c main_arg3 = m ((c : Thread nD τ).loc main_arg3) := V_unwritten m c _ (.inr (.inr (.inr (.inl rfl))))
theorem V_main_arg4 (c : Dev nD) : V m c main_arg4 = m ((c : Thread nD τ).loc main_arg4) := V_unwritten m c _ (.inr (.inr (.inr (.inr (.inl rfl)))))
theorem V_main_arg5 (c : Dev nD) : V m c main_arg5 = m ((c : Thread nD τ).loc main_arg5) := V_unwritten m c _ (.inr (.inr (.inr (.inr (.inr rfl)))))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not
    (a window whose block index does not move is fetched once and stays). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not
    (a window whose block index does not move is fetched once and stays). -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not
    (a window whose block index does not move is fetched once and stays). -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- From a run to the library's frame post: the weights are a staged input (read back at their entry contents), the
    five other arguments are staged by no window and bypass the region; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats 0 c).arrAt_in 1 rfl _).trans ((hA c 1).trans (V_main_arg4 m c))),
      ((h c).2 main_arg5 (Pipeline.mem_restRefs_of main_arg5 (by decide) (by decide))).trans (V_main_arg5 m c)⟩) h

/-! ## The body -/

abbrev rH : Rect S4096x192 := Rect.unit (s := S4096x192) ![0, 0] S4096x192.size inb_S4096x192_S4096x192_0_0
abbrev rW : Rect S192x128 := Rect.unit (s := S192x128) ![0, 0] S192x128.size inb_S192x128_S192x128_0_0
abbrev rB : Rect S1x128 := Rect.unit (s := S1x128) ![0, 0] S1x128.size inb_S1x128_S1x128_0_0
abbrev rO : Rect S4096x128 := Rect.unit (s := S4096x128) ![0, 0] S4096x128.size inb_S4096x128_S4096x128_0_0

/-- The output block after the body, from the three input blocks: its one store, which covers the block. -/
def outTile (h : Vec F S4096x192 .f32) (w : Vec F S192x128 .f32) (b : Vec F S1x128 .f32) : Vec F S4096x128 .f32 :=
  View.canon [⟨rO, k0_pay1 (View.ld h rH) (View.ld w rW) (View.ld b rB)⟩]

theorem cover_out (p0 : Vec F S4096x128 .f32) (y : S4096x128.Idx) :
    ∃ pc ∈ ([⟨rO, p0⟩] : List (View.Piece (Elt F) S4096x128 .f32)), y ∈ pc.1.set :=
  View.cover_of_tiled [⟨rO, p0⟩] S4096x128.size (by rfl) y

set_option maxHeartbeats 1000000 in
/-- The body on whole staging memrefs: the three inputs at `h`, `w`, `b` and the output at anything; it returns the
    inputs as they were and the output at `outTile h w b`. -/
theorem sound_kernel (c : Dev nD) (E : Set ℕ) (i : grid0.Coords)
    (arg1 : Memref sig .tc .vmem S4096x192 .f32) (harg1 : arg1.IsWhole) (arg2 : Memref sig .tc .vmem S192x128 .f32) (harg2 : arg2.IsWhole)
    (arg3 : Memref sig .tc .vmem S1x128 .f32) (harg3 : arg3.IsWhole) (arg4 : Memref sig .tc .vmem S4096x128 .f32) (harg4 : arg4.IsWhole)
    (h : Vec F S4096x192 .f32) (w : Vec F S192x128 .f32) (b : Vec F S1x128 .f32) (K : PUnit → sProp 𝕄) :
    iprop(owns (c : Thread nD τ) arg1 fullShare h ∗ owns (c : Thread nD τ) arg2 fullShare w ∗ owns (c : Thread nD τ) arg3 fullShare b
        ∗ (∃ d, owns (c : Thread nD τ) arg4 fullShare d)
        ∗ (iprop(owns (c : Thread nD τ) arg1 fullShare h ∗ owns (c : Thread nD τ) arg2 fullShare w ∗ owns (c : Thread nD τ) arg3 fullShare b
            ∗ owns (c : Thread nD τ) arg4 fullShare (outTile h w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body at point `t` each input's buffer
    still at its block and the output's at `outTile` of the three input blocks; the invariant says nothing of the
    kernel (it has no scratch); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outTile (iblk m c 0 t) (iblk m c 1 t) (iblk m c 2 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance: the run ends with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Tile

end
-- ==== Proof.Linear.lean ====
/-
  The linear layer as one function of whole arrays. With `H` the 65536×192 matrix of concatenated Chebyshev terms,
  `W` the 192×128 weights and `b` the 128 biases, the layer's output at row `r` and column `c` is
  `∑ k, H[r, k] · W[k, c] + b[c]` over the extended reals. Both programs compute exactly this expression — the
  kernel tile by tile on the matrix unit into a zero accumulator, the reference by one `dot_general` — so no law of
  the extended reals is needed beyond `0 + x = x`, and finiteness of the inputs is never used.
-/
import Idealize.ShloMosaic.PureOps.Ideal
import Idealize.ShloMosaic.Lib.ValueIdx

noncomputable section

namespace Cert.Linear

open Idealize.ShloMosaic
open scoped BigOperators

abbrev SH : Shape := ⟨2, ![65536, 192]⟩
abbrev SW : Shape := ⟨2, ![192, 128]⟩
abbrev SB : Shape := ⟨1, ![128]⟩
abbrev SO : Shape := ⟨2, ![65536, 128]⟩

/-- Row `r = i 0` of `H` at column `k`. -/
abbrev hIdx (i : SO.Idx) (k : Fin 192) : SH.Idx := fun a => match a with
  | ⟨0, _⟩ => ⟨(i 0).val, (i 0).isLt⟩
  | ⟨1, _⟩ => ⟨k.val, k.isLt⟩
/-- Row `k` of `W` at column `c = i 1`. -/
abbrev wIdx (i : SO.Idx) (k : Fin 192) : SW.Idx := fun a => match a with
  | ⟨0, _⟩ => ⟨k.val, k.isLt⟩
  | ⟨1, _⟩ => ⟨(i 1).val, (i 1).isLt⟩
/-- Entry `c = i 1` of `b`. -/
abbrev bIdx (i : SO.Idx) : SB.Idx := fun a => match a with
  | ⟨0, _⟩ => ⟨(i 1).val, (i 1).isLt⟩

/-- The linear layer: `out[r, c] = ∑ k, H[r, k] · W[k, c] + b[c]`. -/
def lin (H : SH.Idx → EReal) (W : SW.Idx → EReal) (b : SB.Idx → EReal) : SO.Idx → EReal :=
  fun i => (∑ k : Fin 192, H (hIdx i k) * W (wIdx i k)) + b (bIdx i)

theorem lin_apply (H : SH.Idx → EReal) (W : SW.Idx → EReal) (b : SB.Idx → EReal) (i : SO.Idx) :
    lin H W b i = (∑ k : Fin 192, H (hIdx i k) * W (wIdx i k)) + b (bIdx i) := rfl

end Cert.Linear

end
-- ==== Proof.KernelIdealValue.lean ====
/-
  What the idealized kernel leaves in its result array. At a grid point the output block is the body's one value
  of the three input blocks; read at a row `r` and column `c` of the block it is
  `∑ k, h[r, k] · w[k, c] + b[0, c]`: the matrix unit's product into a zero accumulator is the plain sum over the
  contracted axis, the change of float format before it is the identity on extended reals, and the broadcast of
  the 1×128 bias row reads its column. The block of `H` at point `t` is rows `4096·t … 4096·t + 4095`, the
  weights and the bias row are whole, and the output block is the same rows of the result; so every point writes
  back the restriction of ONE whole-array function, the linear layer `lin H W b`, and the sixteen blocks cover
  the result array.
-/
import proofs.«115452_j63230508531930_1_alg».proof.Proof.KernelIdealTile
import proofs.«115452_j63230508531930_1_alg».proof.Proof.Linear
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TileValue

open Cert.KernelIdeal.Gen Cert.KernelIdeal.Tile Cert.Linear
open Idealize.ShloMosaic Idealize.ShloMosaic.TcCoe Idealize.SL.Sem Idealize.ShloMosaic.ValueIdx
open Idealize.ShloMosaic.Pipeline (Dat)
open scoped BigOperators

/-! ## The body's value at an index of the block -/

/-- Row `y 0` of the `H` block at column `k`. -/
abbrev hT (y : S4096x128.Idx) (k : Fin 192) : S4096x192.Idx := fun a => match a with
  | ⟨0, _⟩ => ⟨(y 0).val, (y 0).isLt⟩
  | ⟨1, _⟩ => ⟨k.val, k.isLt⟩
/-- Row `k` of the weights at column `y 1`. -/
abbrev wT (y : S4096x128.Idx) (k : Fin 192) : S192x128.Idx := fun a => match a with
  | ⟨0, _⟩ => ⟨k.val, k.isLt⟩
  | ⟨1, _⟩ => ⟨(y 1).val, (y 1).isLt⟩
/-- The bias row at column `y 1`. -/
abbrev bT (y : S4096x128.Idx) : S1x128.Idx := fun a => match a with
  | ⟨0, _⟩ => ⟨0, Nat.one_pos⟩
  | ⟨1, _⟩ => ⟨(y 1).val, (y 1).isLt⟩

theorem lhs_axis0 (y : S4096x128.Idx) (q : dot_S4096x192_S192x128_S4096x128_1_0_0_1_n_n.contr.Idx) :
    (dot_S4096x192_S192x128_S4096x128_1_0_0_1_n_n.lhsIdx y q 0).val = (y 0).val := by
  unfold DotDims.lhsIdx
  rw [dif_neg (show ¬(0 : Fin S4096x192.rank) ∈ dot_S4096x192_S192x128_S4096x128_1_0_0_1_n_n.lhsBatch by decide), dif_pos (show (0 : Fin S4096x192.rank) ∈ dot_S4096x192_S192x128_S4096x128_1_0_0_1_n_n.lhsNonContracting by decide)]
  rfl
theorem lhs_axis1 (y : S4096x128.Idx) (q : dot_S4096x192_S192x128_S4096x128_1_0_0_1_n_n.contr.Idx) :
    (dot_S4096x192_S192x128_S4096x128_1_0_0_1_n_n.lhsIdx y q 1).val = (q ⟨0, by decide⟩).val :=
  dot_S4096x192_S192x128_S4096x128_1_0_0_1_n_n.lhsIdx_val_of_single rfl y q
theorem rhs_axis0 (y : S4096x128.Idx) (q : dot_S4096x192_S192x128_S4096x128_1_0_0_1_n_n.contr.Idx) :
    (dot_S4096x192_S192x128_S4096x128_1_0_0_1_n_n.rhsIdx y q 0).val = (q ⟨0, by decide⟩).val :=
  dot_S4096x192_S192x128_S4096x128_1_0_0_1_n_n.rhsIdx_val_of_single rfl y q
theorem rhs_axis1 (y : S4096x128.Idx) (q : dot_S4096x192_S192x128_S4096x128_1_0_0_1_n_n.contr.Idx) :
    (dot_S4096x192_S192x128_S4096x128_1_0_0_1_n_n.rhsIdx y q 1).val = (y 1).val := by
  unfold DotDims.rhsIdx
  rw [dif_neg (show ¬(1 : Fin S192x128.rank) ∈ dot_S4096x192_S192x128_S4096x128_1_0_0_1_n_n.rhsBatch by decide), dif_pos (show (1 : Fin S192x128.rank) ∈ dot_S4096x192_S192x128_S4096x128_1_0_0_1_n_n.rhsNonContracting by decide)]
  rfl

/-- The matrix unit's product into the zero accumulator, at an index: the sum over the 192 contracted columns. -/
theorem matmul_tile (h : FVec Ideal S4096x192 .bf16) (w : FVec Ideal S192x128 .bf16) (y : S4096x128.Idx) :
    matmul (F := Ideal) dot_S4096x192_S192x128_S4096x128_1_0_0_1_n_n none h w (constant (F := Ideal) S4096x128 .f32 0x00000000#32) y = ∑ k : Fin 192, h (hT y k) * w (wT y k) := by
  simp only [matmul]
  rw [Ideal.matmul_constant_zero_apply, ← Equiv.sum_comp (ValueIdx.contrEquiv1 dot_S4096x192_S192x128_S4096x128_1_0_0_1_n_n 192 rfl rfl).symm]
  refine Finset.sum_congr rfl fun k _ => ?_
  have hk := ValueIdx.contrEquiv1_symm_val dot_S4096x192_S192x128_S4096x128_1_0_0_1_n_n 192 rfl rfl k
  have el : dot_S4096x192_S192x128_S4096x128_1_0_0_1_n_n.lhsIdx y ((ValueIdx.contrEquiv1 dot_S4096x192_S192x128_S4096x128_1_0_0_1_n_n 192 rfl rfl).symm k) = hT y k := funext fun a => Fin.ext (by
    match a with
    | ⟨0, _⟩ => exact lhs_axis0 _ _
    | ⟨1, _⟩ => exact (lhs_axis1 _ _).trans hk)
  have er : dot_S4096x192_S192x128_S4096x128_1_0_0_1_n_n.rhsIdx y ((ValueIdx.contrEquiv1 dot_S4096x192_S192x128_S4096x128_1_0_0_1_n_n 192 rfl rfl).symm k) = wT y k := funext fun a => Fin.ext (by
    match a with
    | ⟨0, _⟩ => exact (rhs_axis0 _ _).trans hk
    | ⟨1, _⟩ => exact rhs_axis1 _ _)
  rw [el, er]

/-- The body's stored value at row `y 0`, column `y 1` of the block. -/
theorem pay_apply (h : Vec Ideal S4096x192 .f32) (w : Vec Ideal S192x128 .f32) (b : Vec Ideal S1x128 .f32) (y : S4096x128.Idx) :
    k0_pay1 (F := Ideal) h w b y = (∑ k : Fin 192, h (hT y k) * w (wT y k)) + b (bT y) := by
  unfold k0_pay1
  show (matmul (F := Ideal) dot_S4096x192_S192x128_S4096x128_1_0_0_1_n_n none (truncf (F := Ideal) .bf16 (shapeCast S4096x192 h shapeCasts_S4096x192_S4096x192) bitsLt_bf16_f32) (truncf (F := Ideal) .bf16 w bitsLt_bf16_f32) (constant (F := Ideal) S4096x128 .f32 0x00000000#32)) y
      + (broadcastTo S4096x128 (shapeCast S1x128 b shapeCasts_S1x128_S1x128) broadcasts_S1x128_S4096x128) y = _
  rw [matmul_tile, shapeCast_self, shapeCast_self,
    broadcastTo_apply b broadcasts_S1x128_S4096x128 y (bT y) (fun a => match a with
      | ⟨0, _⟩ => by show 0 = if (1 : Nat) = 1 then 0 else _; rw [if_pos rfl]
      | ⟨1, _⟩ => by show (y 1).val = if (128 : Nat) = 1 then 0 else (y 1).val; rw [if_neg (by decide)])]
  rfl

/-! ## Every point writes back the linear layer's rows -/

variable (m : (ℓ : Loc nD τ sig) → Buf (Elt Ideal) ℓ) (ρ : Dev nD → PrngReg)

theorem hz : (![0, 0] : Fin 2 → Nat) = fun _ => 0 := funext fun a => by fin_cases a <;> rfl

/-- The bias row's entry for a column of the bias vector. -/
abbrev rowIdx (j : SB.Idx) : S1x128.Idx := fun a => match a with
  | ⟨0, _⟩ => ⟨0, Nat.one_pos⟩
  | ⟨1, _⟩ => ⟨(j 0).val, (j 0).isLt⟩

/-- The bias vector the kernel's window reads, through the 1×128 row the host reshaped it to. -/
abbrev biasOf (c : Dev nD) : SB.Idx → EReal := fun j => V m c main_v30 (rowIdx j)

/-- The block index maps over the grid: the `H` window and the output window move together along the rows, every
    other block index is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every block row of the result is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- What point `t` writes back is block `t` of the linear layer of the arrays as the region finds them. -/
theorem flushed_eq (c : Dev nD) (t : Fin cfg0.N) :
    (dats m 0 c).flushed 3 t = ((cfg0.win 3).blk t).view.read (Elt Ideal)
      (lin (V m c main_v29) (V m c main_arg4) (biasOf m c)) := by
  show (cfg0.win 3).cut (grid0.coords t) ((dats m 0 c).after 3 t) = _
  rw [after_3]
  unfold outTile
  rw [View.canon_unit_zero hz]
  simp only [View.ld_unit_zero (S := S4096x192) hz, View.ld_unit_zero (S := S192x128) hz, View.ld_unit_zero (S := S1x128) hz]
  obtain ⟨e0, e1, e2, e3, e4, e5, e6, e7⟩ := idx_facts t
  funext y
  show k0_pay1 (F := Ideal) (iblk m c 0 t) (iblk m c 1 t) (iblk m c 2 t) y
    = lin (V m c main_v29) (V m c main_arg4) (biasOf m c) (((cfg0.win 3).blk t).view.emb y)
  refine (pay_apply (iblk m c 0 t) (iblk m c 1 t) (iblk m c 2 t) y).trans ?_
  rw [lin_apply]
  have hh : ∀ k : Fin 192, iblk m c 0 t (hT y k) = V m c main_v29 (hIdx (((cfg0.win 3).blk t).view.emb y) k) := fun k => by
    show V m c main_v29 (((cfg0.win 0).blk t).view.emb (hT y k)) = _
    refine congrArg (V m c main_v29) (funext fun a => Fin.ext ?_)
    match a with
    | ⟨0, _⟩ => show win0_0.index t (0 : Fin 2) * 4096 + 1 * (y 0).val = win0_3.index t (0 : Fin 2) * 4096 + 1 * (y 0).val; omega
    | ⟨1, _⟩ => show win0_0.index t (1 : Fin 2) * 192 + 1 * k.val = k.val; omega
  have hw : ∀ k : Fin 192, iblk m c 1 t (wT y k) = V m c main_arg4 (wIdx (((cfg0.win 3).blk t).view.emb y) k) := fun k => by
    show V m c main_arg4 (((cfg0.win 1).blk t).view.emb (wT y k)) = _
    refine congrArg (V m c main_arg4) (funext fun a => Fin.ext ?_)
    match a with
    | ⟨0, _⟩ => show win0_1.index t (0 : Fin 2) * 192 + 1 * k.val = k.val; omega
    | ⟨1, _⟩ => show win0_1.index t (1 : Fin 2) * 128 + 1 * (y 1).val = win0_3.index t (1 : Fin 2) * 128 + 1 * (y 1).val; omega
  have hb : iblk m c 2 t (bT y) = biasOf m c (bIdx (((cfg0.win 3).blk t).view.emb y)) := by
    show V m c main_v30 (((cfg0.win 2).blk t).view.emb (bT y)) = V m c main_v30 (rowIdx (bIdx (((cfg0.win 3).blk t).view.emb y)))
    refine congrArg (V m c main_v30) (funext fun a => Fin.ext ?_)
    match a with
    | ⟨0, _⟩ => show win0_2.index t (0 : Fin 2) * 1 + 1 * 0 = 0; omega
    | ⟨1, _⟩ => show win0_2.index t (1 : Fin 2) * 128 + 1 * (y 1).val = win0_3.index t (1 : Fin 2) * 128 + 1 * (y 1).val; omega
  rw [hb]
  exact congrArg (· + _) (Finset.sum_congr rfl fun k _ => by rw [hh k, hw k])

/-- An index of the result array is in point `t`'s block iff each coordinate is in the block's range. -/
theorem mem_blk (t : Fin cfg0.N) (i : S65536x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v31).slice (win0_3.rect t)).set ↔ _
  rw [View.set_slice_whole, Rect.mem_set_unit]
  exact Iff.rfl

/-- Row `r` of the result is written by the point whose block holds it, point `r / 4096`. -/
theorem cover (i : S65536x128.Idx) : ∃ t : Fin cfg0.N, (cfg0.win 3).flush t = true ∧ i ∈ ((cfg0.win 3).blk t).view.set := by
  have hi0 : (i 0).val < 65536 := (i 0).isLt
  have hi1 : (i 1).val < 128 := (i 1).isLt
  obtain ⟨t, ht⟩ := idx_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- The result array after the run: the linear layer of the arrays as the region finds them. -/
theorem final (c : Dev nD) : (dats m 0 c).arrAt 3 cfg0.N = lin (V m c main_v29) (V m c main_arg4) (biasOf m c) :=
  (dats m 0 c).arrAt_eq_of_cover 3 _ (fun t _ => flushed_eq m c t) cover

end Cert.KernelIdeal.TileValue

end
-- ==== Proof.KernelIdealHost.lean ====
/-
  The arrays the region finds, as functions of the launch contents. The host prefix of the kernel's program is, line
  for line, the reference's own computation of the Chebyshev terms: `T1 = L·X` and `T2 = 2·L·T1 − X`, each product
  with the sparse operator a gather of rows, a scaling by the edge values and a scatter-add into the edge rows; and
  the array the kernel's first window reads is the concatenation `[X | T1 | T2]` along the columns. Each term is
  carried as the reference's own stage for it, applied to the kernel's arguments, and never opened: whatever the
  gathers and scatter-adds compute, both programs compute it by the same operations of the same arguments. The bias
  window's array is the bias vector reshaped to one row, whose entry in column `c` is the vector's entry `c`.
-/
import proofs.«115452_j63230508531930_1_alg».proof.Proof.KernelIdealTile
import proofs.«115452_j63230508531930_1_alg».proof.Proof.Gen.ReferenceIdeal.Read
import Idealize.ShloMosaic.Lib.StableHlo.Run
import Idealize.ShloMosaic.Lib.Pipeline.Value

set_option maxRecDepth 16384

noncomputable section

namespace Cert.KernelIdeal.HostValue

open Cert.KernelIdeal.Gen Cert.KernelIdeal.Tile
open Idealize.ShloMosaic Idealize.ShloMosaic.TcCoe Idealize.SL.Sem Idealize.ShloMosaic.StableHlo

variable (m : (ℓ : Loc nD τ sig) → Buf (Elt Ideal) ℓ)

set_option maxHeartbeats 2000000 in
/-- `T1 = L·X` as the region finds it: the reference's stage for it, of the kernel's arguments. -/
theorem V_T1 (c : Dev nD) : (V m c main_v12 : S65536x64.Idx → EReal)
    = Cert.ReferenceIdeal.Read.val_main_v12 (F := Ideal) (m ((c : Thread nD τ).loc main_arg0)) (m ((c : Thread nD τ).loc main_arg1))
        (m ((c : Thread nD τ).loc main_arg2)) (m ((c : Thread nD τ).loc main_arg3)) := by
  dsimp only [V, hostOps0]
  after_results_simp <;> rfl

set_option maxHeartbeats 2000000 in
/-- `T2 = 2·L·T1 − X` as the region finds it: the reference's stage for it, of the kernel's arguments. -/
theorem V_T2 (c : Dev nD) : (V m c main_v28 : S65536x64.Idx → EReal)
    = Cert.ReferenceIdeal.Read.val_main_v28 (F := Ideal) (m ((c : Thread nD τ).loc main_arg0)) (m ((c : Thread nD τ).loc main_arg1))
        (m ((c : Thread nD τ).loc main_arg2)) (m ((c : Thread nD τ).loc main_arg3)) := by
  dsimp only [V, hostOps0]
  after_results_simp <;> rfl

/-- The first window's array is the concatenation of the three terms as the region finds them: the concatenation
    reads its operands where the two later host lines (itself and the reshape of the bias) leave them untouched. -/
theorem V_cat (c : Dev nD) : (V m c main_v29 : S65536x192.Idx → EReal)
    = concatenate S65536x192 1 [⟨S65536x64, V m c main_arg0⟩, ⟨S65536x64, V m c main_v12⟩, ⟨S65536x64, V m c main_v28⟩]
        concatenates_S65536x64_S65536x64_S65536x64_S65536x192_d1 := by
  dsimp only [V, hostOps0]
  simp only [after_cons, after_nil]
  rw [reshape_result_ne (h := by decide), nary_result,
    reshape_result_ne (h := by decide), nary_result_ne (h := by decide),
    reshape_result_ne (h := by decide), nary_result_ne (h := by decide),
    reshape_result_ne (h := by decide), nary_result_ne (h := by decide)]
  rfl

/-- The bias window's array: the bias vector as one row. -/
theorem V_bias (c : Dev nD) : (V m c main_v30 : S1x128.Idx → EReal)
    = shapeCast S1x128 (m ((c : Thread nD τ).loc main_arg5)) shapeCasts_S128_S1x128 := by
  dsimp only [V, hostOps0]
  after_results_simp
  rfl

end Cert.KernelIdeal.HostValue

end
-- ==== Proof.KernelIdealRun.lean ====
/-
  The idealized kernel's run, read as a value: its result array ends at the linear layer of the concatenated
  Chebyshev terms (as the reference's own stage computes them from the same arguments), the weights and the bias
  vector; the six arguments end as launched.
-/
import proofs.«115452_j63230508531930_1_alg».proof.Proof.KernelIdealValue
import proofs.«115452_j63230508531930_1_alg».proof.Proof.KernelIdealHost

set_option maxRecDepth 16384

noncomputable section

namespace Cert.KernelIdeal.Run

open Cert.KernelIdeal.Gen Cert.KernelIdeal.Tile Cert.KernelIdeal.TileValue Cert.KernelIdeal.HostValue Cert.Linear
open Idealize.ShloMosaic Idealize.ShloMosaic.TcCoe Idealize.SL.Sem

variable (m : (ℓ : Loc nD τ sig) → Buf (Elt Ideal) ℓ) (ρ : Dev nD → PrngReg)

/-- The first window's array is `[X | T1 | T2]`, the reference's concatenation stage of the kernel's arguments. -/
theorem terms_eq (c : Dev nD) : (V m c main_v29 : S65536x192.Idx → EReal)
    = Cert.ReferenceIdeal.Read.val_main_v29 (F := Ideal) (m ((c : Thread nD τ).loc main_arg0)) (m ((c : Thread nD τ).loc main_arg1))
        (m ((c : Thread nD τ).loc main_arg2)) (m ((c : Thread nD τ).loc main_arg3)) := by
  rw [V_cat, V_main_arg0, V_T1, V_T2]
  rfl

/-- The bias the kernel's window reads is the bias vector: the one-row reshape read in column `c` is entry `c`. -/
theorem bias_eq (c : Dev nD) : biasOf m c = m ((c : Thread nD τ).loc main_arg5) := by
  funext j
  show V m c main_v30 (rowIdx j) = _
  rw [V_bias]
  exact (shapeCast_addUnit_apply ![128] (m ((c : Thread nD τ).loc main_arg5)) shapeCasts_S128_S1x128 (rowIdx j)).trans
    (congrArg _ (funext fun a => match a with | ⟨0, _⟩ => rfl))

/-- Every weakly fair execution of the idealized kernel's @main terminates with the result array at the linear layer
    and the arguments unchanged. -/
theorem run : θ_run defs (onTc (τ := τ) (main (F := Ideal))) ⟨m, fun _ => 0, ρ⟩ (fun r => ∀ c : Dev nD,
      r.2.mem ((c.tc : Thread nD τ).loc main_v31)
        = lin (Cert.ReferenceIdeal.Read.val_main_v29 (F := Ideal) (m ((c.tc : Thread nD τ).loc main_arg0)) (m ((c.tc : Thread nD τ).loc main_arg1))
            (m ((c.tc : Thread nD τ).loc main_arg2)) (m ((c.tc : Thread nD τ).loc main_arg3)))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (((h c).1 3).trans (final m c)).trans (by rw [terms_eq, V_main_arg4, bias_eq]),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans ((((dats m) 0 c).arrAt_in 1 rfl _).trans ((A_eq m c 1).trans (V_main_arg4 m c))),
      ((h c).2 main_arg5 (Pipeline.mem_restRefs_of main_arg5 (by decide) (by decide))).trans (V_main_arg5 m c)⟩)
    (run_main m ρ)

end Cert.KernelIdeal.Run

end
-- ==== Proof.RefLinear.lean ====
/-
  The reference's result is the linear layer of its own concatenated Chebyshev terms: its `dot_general` read at an
  index is the sum over the contracted axis, its two broadcasts of the bias read the bias at the column, and its
  final addition is the sum of the two.
-/
import proofs.«115452_j63230508531930_1_alg».proof.Proof.Gen.ReferenceIdeal.Read
import proofs.«115452_j63230508531930_1_alg».proof.Proof.Linear

noncomputable section

namespace Cert.ReferenceIdeal.RefLinear

open Cert.ReferenceIdeal Cert.ReferenceIdeal.Gen Cert.ReferenceIdeal.Read Idealize.ShloMosaic

/-- `reference = lin H W b` with `H` the reference's own concatenation of `T0`, `T1`, `T2`. -/
theorem ref_is_lin (x0 : (⟨S65536x64, .f32⟩ : BufTy).Contents (Elt Ideal)) (x1 x2 : (⟨S1048576, .i32⟩ : BufTy).Contents (Elt Ideal))
    (x3 : (⟨S1048576, .f32⟩ : BufTy).Contents (Elt Ideal)) (x4 : (⟨S192x128, .f32⟩ : BufTy).Contents (Elt Ideal))
    (x5 : (⟨S128, .f32⟩ : BufTy).Contents (Elt Ideal)) :
    val_main_v33 (F := Ideal) x0 x1 x2 x3 x4 x5 = Cert.Linear.lin (val_main_v29 (F := Ideal) x0 x1 x2 x3) x4 x5 := by
  funext i
  rw [val_main_v33_apply, val_main_v30_apply, val_main_v32_apply, val_main_v31_apply]
  rfl

end Cert.ReferenceIdeal.RefLinear

end
-- ==== Proof.lean ====
/-
  A Chebyshev graph layer: `out = [X | L·X | 2·L·(L·X) − X] · W + b` with `L` a sparse operator given by its
  edges. The kernel's program computes the three Chebyshev terms on the host exactly as the reference does (the
  same gathers, scalings and scatter-adds of the same arguments) and hands their concatenation `H` to one
  pallas_call, which computes `H · W + b` in sixteen tiles of 4096 rows on the matrix unit; the reference
  computes `H · W + b` by one `dot_general` and a broadcast sum.

  Over the extended reals both are the ONE function `lin H W b`, `out[r, c] = ∑ k, H[r, k] · W[k, c] + b[c]`:
  the kernel's change of float format before the product is the identity, its product into a zero accumulator is
  the plain sum, each tile is the restriction of `lin` to its rows and the tiles cover the result; the reference's
  `dot_general` is the same sum. No law of the extended reals beyond `0 + x = x` joins the two sides, so the
  finiteness of the inputs is never used, and the edge indices may be anything: whatever the gathers and
  scatter-adds do with them, both programs do the same.

  The three frames: the kernel's two programs run their host prefix and their region to the end with the argument
  arrays untouched (the host lines write fresh buffers; the region stages only the weights among the arguments and
  reads them back as they were); the reference's is its run with the result dropped. The ideal pass rewrote
  nothing, so there is nothing to preserve.
-/
import proofs.«115452_j63230508531930_1_alg».proof.Defs
import proofs.«115452_j63230508531930_1_alg».proof.Proof.Gen.Kernel
import proofs.«115452_j63230508531930_1_alg».proof.Proof.Gen.KernelIdeal
import proofs.«115452_j63230508531930_1_alg».proof.Proof.Gen.ReferenceIdeal
import proofs.«115452_j63230508531930_1_alg».proof.Proof.Gen.Pre_finite_inputs
import proofs.«115452_j63230508531930_1_alg».proof.Proof.Gen.ReferenceIdeal.Run
import proofs.«115452_j63230508531930_1_alg».proof.Proof.Gen.ReferenceIdeal.Read
import proofs.«115452_j63230508531930_1_alg».proof.Proof.KernelTile
import proofs.«115452_j63230508531930_1_alg».proof.Proof.KernelIdealTile
import proofs.«115452_j63230508531930_1_alg».proof.Proof.KernelIdealRun
import proofs.«115452_j63230508531930_1_alg».proof.Proof.RefLinear
import Idealize.ShloMosaic.Adequacy
import Idealize.ShloMosaic.Init

noncomputable section

namespace Cert.Proof

open Idealize.ShloMosaic Idealize.SL.Sem

/-- The kernel as printed runs to the end and leaves its six arguments as launched. -/
theorem frame_kernel : Cert.frame_Kernel := fun m ρ _ => Cert.Kernel.Tile.frame m ρ

/-- So does its idealization. -/
theorem frame_kernelIdeal : Cert.frame_KernelIdeal := fun m ρ _ => Cert.KernelIdeal.Tile.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at `lin [X | T1 | T2] W b` of arguments that agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefLinear.ref_is_lin,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
